-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8191x1 : Shape := ⟨2, ![8191, 1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8191x1 : S_.BroadcastsInDim S8191x1 (![] : Fin 0 → Fin S8191x1.rank)
  reducesTo_S8191x1_S_d0_1 : S8191x1.ReducesTo [0, 1] S_

variable [Facts]

def fn {F : FTy → Type} [FloatOps F] (main_arg0 : FVec F S8192x8192 .f32) (main_arg1 : FVec F S8191x1 .f32) (main_arg2 : FVec F S8191x1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8191x1 .f32 := Host.absf main_arg1
  let main_cst_0 : FVec F S_ .f32 := constant S_ .f32 0x7F800000#32
  let main_v5 : FVec F S8191x1 .f32 := broadcastInDim S8191x1 ![] bcast_S_S8191x1 main_cst_0
  let main_v6 : IVec S8191x1 1 := cmpf .olt main_v4 main_v5
  let main_c_1 : IVec S_ 1 := constantI S_ 1 1#1
  let main_v7 : IVec S_ 1 := (fun x v => Host.reduce IntOp.andi x v reducesTo_S8191x1_S_d0_1 h_S_) main_v6 main_c_1
  let main_v8 : IVec S_ 1 := andi main_v3 main_v7
  let main_v9 : FVec F S8191x1 .f32 := Host.absf main_arg2
  let main_cst_2 : FVec F S_ .f32 := constant S_ .f32 0x7F800000#32
  let main_v10 : FVec F S8191x1 .f32 := broadcastInDim S8191x1 ![] bcast_S_S8191x1 main_cst_2
  let main_v11 : IVec S8191x1 1 := cmpf .olt main_v9 main_v10
  let main_c_3 : IVec S_ 1 := constantI S_ 1 1#1
  let main_v12 : IVec S_ 1 := (fun x v => Host.reduce IntOp.andi x v reducesTo_S8191x1_S_d0_1 h_S_) main_v11 main_c_3
  let main_v13 : IVec S_ 1 := andi main_v8 main_v12
  main_v13
-- ==== Kernel.lean ====
abbrev S8192x8192 : Shape := ⟨2, ![8192, 8192]⟩
abbrev S8191x1 : Shape := ⟨2, ![8191, 1]⟩
abbrev S8192x128 : Shape := ⟨2, ![8192, 128]⟩
abbrev S1x128 : Shape := ⟨2, ![1, 128]⟩
abbrev S8191x128 : Shape := ⟨2, ![8191, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8191x1, .f32⟩
  | .hbm, ⟨2, _⟩ => ⟨S8191x1, .f32⟩
  | .hbm, ⟨3, _⟩ => ⟨S8192x8192, .f32⟩
  | .local _ .vmem, ⟨0, _⟩ => ⟨S8192x128, .f32⟩
  | .local _ .vmem, ⟨1, _⟩ => ⟨S8192x128, .f32⟩
  | .local _ .vmem, ⟨2, _⟩ => ⟨S8191x1, .f32⟩
  | .local _ .vmem, ⟨3, _⟩ => ⟨S8191x1, .f32⟩
  | .local _ .vmem, ⟨4, _⟩ => ⟨S8192x128, .f32⟩
  | .local _ .vmem, ⟨5, _⟩ => ⟨S8192x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8191x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8191x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8192x128_S1x128_0_0 : ∀ a, (![0, 0] : Fin 2 → Nat) a + S1x128.size a ≤ S8192x128.size a
  h_S1x128 : 0 < S1x128.numel
  inb_S8191x1_S8191x1_0_0 : ∀ a, (![0, 0] : Fin 2 → Nat) a + S8191x1.size a ≤ S8191x1.size a
  h_S8191x1 : 0 < S8191x1.numel
  shapeCasts_S8191x1_S8191x1 : S8191x1.ShapeCasts S8191x1
  broadcasts_S8191x1_S8191x128 : S8191x1.Broadcasts S8191x128
  inb_S8192x128_S8191x128_1_0 : ∀ a, (![1, 0] : Fin 2 → Nat) a + S8191x128.size a ≤ S8192x128.size a
  h_S8191x128 : 0 < S8191x128.numel
  inb_S8192x128_S8191x128_0_0 : ∀ a, (![0, 0] : Fin 2 → Nat) a + S8191x128.size a ≤ S8192x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x8192.size a
  hwx0_0 : ∀ i : grid0.Coords, EltTy.bits .f32 = 32 ∨ (Rect.block (s := S8192x8192) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8191x1.size a ≤ S8191x1.size a
  hwx0_1 : ∀ i : grid0.Coords, EltTy.bits .f32 = 32 ∨ (Rect.block (s := S8191x1) S8191x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8191x1.size a ≤ S8191x1.size a
  hwx0_2 : ∀ i : grid0.Coords, EltTy.bits .f32 = 32 ∨ (Rect.block (s := S8191x1) S8191x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x8192.size a
  hwx0_3 : ∀ i : grid0.Coords, EltTy.bits .f32 = 32 ∨ (Rect.block (s := S8192x8192) S8192x128.size (cc0_transform_3 i) (hinb0_3 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8191x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8191x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8191x1 : Shape := ⟨2, ![8191, 1]⟩
abbrev S8191x8192 : Shape := ⟨2, ![8191, 8192]⟩
abbrev S1x8192 : Shape := ⟨2, ![1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8191x1, .f32⟩
  | .hbm, ⟨2, _⟩ => ⟨S8191x1, .f32⟩
  | .hbm, ⟨3, _⟩ => ⟨S8191x8192, .f32⟩
  | .hbm, ⟨4, _⟩ => ⟨S8191x8192, .f32⟩
  | .hbm, ⟨5, _⟩ => ⟨S8191x8192, .f32⟩
  | .hbm, ⟨6, _⟩ => ⟨S8191x8192, .f32⟩
  | .hbm, ⟨7, _⟩ => ⟨S8191x8192, .f32⟩
  | .hbm, ⟨8, _⟩ => ⟨S8191x8192, .f32⟩
  | .hbm, ⟨9, _⟩ => ⟨S8191x8192, .f32⟩
  | .hbm, ⟨10, _⟩ => ⟨S1x8192, .f32⟩
  | .hbm, ⟨11, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S8192x8192_S8191x8192_1_0 : S8192x8192.Slices ![1, 0] S8191x8192
  slices_S8192x8192_S8191x8192_0_0 : S8192x8192.Slices ![0, 0] S8191x8192
  bcast_S8191x1_S8191x8192_0_1 : S8191x1.BroadcastsInDim S8191x8192 (![0, 1] : Fin 2 → Fin S8191x8192.rank)
  slices_S8192x8192_S1x8192_0_0 : S8192x8192.Slices ![0, 0] S1x8192
  concatenates_S1x8192_S8191x8192_S8192x8192_d0 : Shape.Concatenates [S1x8192, S8191x8192] S8192x8192 0

variable [Facts₀]

class Facts : Prop extends Facts₀ where

variable [Facts]
-- ==== Proof.ShiftedAffine.lean ====
/-
  One step of a first-order affine recurrence down the rows of an array of 8192 rows.

  Given an array `x` of 8192 rows and two columns `w`, `b` of 8191 coefficients, the result keeps row 0 of `x`,
  and row `r + 1` is `(x[r+1] + x[r] · w[r]) + b[r]`: the entry above, scaled by that row's coefficient, is added to
  the entry itself, and the row's shift is added last; every element of a row shares the row's two coefficients.
  The product is formed first, then the sum with the entry, then the shift — the grouping matters on the extended
  reals, where sums of infinities of opposite sign do not reassociate, and it is the grouping both programs use.

  The number of columns `n` is a parameter because the operation acts column by column: the same definition at
  `n = 8192` states the whole result and at `n = 128` one strip of 128 consecutive columns of it, and a strip of the
  result is the result of the strip (`step_strip`).
-/
import Idealize.ShloMosaic.PureOps.Ideal
import Idealize.ShloMosaic.Lib.ValueIdx

noncomputable section

namespace Cert.ShiftedAffine

open Idealize.ShloMosaic Idealize.ShloMosaic.ValueIdx

/-- An array of 8192 rows and `n` columns. -/
abbrev Rows (n : Nat) : Shape := ⟨2, ![8192, n]⟩
/-- A column of per-row coefficients: one for each row that has a row above it. -/
abbrev Col : Shape := ⟨2, ![8191, 1]⟩

/-- Row `r + 1`, column `q` of the result: the entry, plus the entry above it times row `r`'s coefficient, plus row
    `r`'s shift. -/
def below (n : Nat) (x : FVec Ideal (Rows n) .f32) (w b : FVec Ideal Col .f32) (r : Fin 8191) (q : Fin n) : Ideal .f32 :=
  (x (ix2 r.succ q) + x (ix2 r.castSucc q) * w (ix2 r (0 : Fin 1))) + b (ix2 r (0 : Fin 1))

/-- The result, index by index, by cases on the row: row 0 is kept, a later row is `below`. -/
def step (n : Nat) (x : FVec Ideal (Rows n) .f32) (w b : FVec Ideal Col .f32) : FVec Ideal (Rows n) .f32 := fun i =>
  Fin.cases (n := 8191) (motive := fun _ => Ideal .f32) (x (ix2 (0 : Fin 8192) (i 1))) (fun r => below n x w b r (i 1)) (i 0)

/-- Row 0 of the result is row 0 of `x`. -/
theorem step_top (n : Nat) (x : FVec Ideal (Rows n) .f32) (w b : FVec Ideal Col .f32) (q : Fin n) :
    step n x w b (ix2 (0 : Fin 8192) q) = x (ix2 (0 : Fin 8192) q) := rfl

/-- Row `r + 1` of the result is the affine combination of rows `r + 1` and `r` of `x`. -/
theorem step_below (n : Nat) (x : FVec Ideal (Rows n) .f32) (w b : FVec Ideal Col .f32) (r : Fin 8191) (q : Fin n) :
    step n x w b (ix2 r.succ q) = below n x w b r q := rfl

/-- The operation acts on each column by itself: if the strip `xs` holds, in its column `q`, column `col q` of `x`,
    and `ws`, `bs` are copies of the coefficient columns, the result of the strip at column `q` is the result of the
    whole array at column `col q`. -/
theorem step_strip (n k : Nat) (x : FVec Ideal (Rows n) .f32) (w b : FVec Ideal Col .f32)
    (xs : FVec Ideal (Rows k) .f32) (ws bs : FVec Ideal Col .f32) (col : Fin k → Fin n)
    (hxs : ∀ (p : Fin 8192) (q : Fin k), xs (ix2 p q) = x (ix2 p (col q)))
    (hws : ∀ r : Fin 8191, ws (ix2 r (0 : Fin 1)) = w (ix2 r (0 : Fin 1)))
    (hbs : ∀ r : Fin 8191, bs (ix2 r (0 : Fin 1)) = b (ix2 r (0 : Fin 1)))
    (p : Fin 8192) (q : Fin k) : step k xs ws bs (ix2 p q) = step n x w b (ix2 p (col q)) := by
  obtain rfl | ⟨r, rfl⟩ := Fin.eq_zero_or_eq_succ (n := 8191) p
  · rw [step_top, step_top, hxs]
  · rw [step_below, step_below]
    unfold below
    rw [hxs, hxs, hws, hbs]

end Cert.ShiftedAffine

end
-- ==== Proof.ReferenceValue.lean ====
/-
  The reference's result is the affine step of its arguments.

  The reference cuts `x` into its rows 1..8191 and its rows 0..8190, stretches the two coefficient columns across
  the 8192 columns, forms `(x[1:] + x[:-1] · w) + b` on 8191 rows, and puts row 0 of `x` on top. Read at row 0 the
  joined array is the top piece, which is `x`'s row 0; read at row `r + 1` it is the lower piece at row `r`, where the
  two cuts read `x` at rows `r + 1` and `r` and the stretched columns read the coefficients of row `r`.
-/
import proofs.«179483_j309237646072_1_alg».proof.Proof.Gen.ReferenceIdeal.Read
import proofs.«179483_j309237646072_1_alg».proof.Proof.ShiftedAffine
import Idealize.ShloMosaic.Lib.ValueIdx
import Idealize.ShloMosaic.Lib.Pipeline.Value

noncomputable section

namespace Cert.ShiftedAffine.Reference

open Idealize.ShloMosaic Idealize.ShloMosaic.ValueIdx
open Cert.ReferenceIdeal Cert.ReferenceIdeal.Gen Cert.ReferenceIdeal.Read

/-- The cut from row 1 on, read at row `r`, reads `x` at row `r + 1`. -/
theorem lower_cut (r : Fin 8191) (q : Fin 8192) : idx_main_v0 (ix2 r q) = ix2 r.succ q :=
  funext fun a => match a with
    | ⟨0, _⟩ => Fin.ext (by show 1 + r.val = r.val + 1; omega)
    | ⟨1, _⟩ => rfl

/-- The cut of all rows but the last, read at row `r`, reads `x` at row `r`. -/
theorem upper_cut (r : Fin 8191) (q : Fin 8192) : idx_main_v1 (ix2 r q) = ix2 r.castSucc q :=
  funext fun a => match a with
    | ⟨0, _⟩ => rfl
    | ⟨1, _⟩ => rfl

/-- A coefficient column stretched across the columns reads, anywhere in row `r`, the coefficient of row `r`. -/
theorem scale_col (r : Fin 8191) (q : Fin 8192) : idx_main_v2 (ix2 r q) = ix2 r (0 : Fin 1) :=
  funext fun a => match a with
    | ⟨0, _⟩ => rfl
    | ⟨1, _⟩ => rfl

theorem shift_col (r : Fin 8191) (q : Fin 8192) : idx_main_v5 (ix2 r q) = ix2 r (0 : Fin 1) :=
  funext fun a => match a with
    | ⟨0, _⟩ => rfl
    | ⟨1, _⟩ => rfl

/-- The one-row cut at the top reads `x` at row 0. -/
theorem top_cut (q : Fin 8192) : idx_main_v7 (ix2 (0 : Fin 1) q) = ix2 (0 : Fin 8192) q :=
  funext fun a => match a with
    | ⟨0, _⟩ => rfl
    | ⟨1, _⟩ => rfl

/-- The reference's last stage, as a function of the three arguments, is the affine step on all 8192 columns. -/
theorem reference_eq (x : FVec Ideal (Rows 8192) .f32) (w b : FVec Ideal Col .f32) :
    val_main_v8 (F := Ideal) x w b = step 8192 x w b := by
  funext i
  obtain ⟨p, q, rfl⟩ : ∃ (p : Fin 8192) (q : Fin 8192), i = ix2 p q := ⟨i 0, i 1, eq_ix2 i⟩
  unfold val_main_v8
  obtain rfl | ⟨r, rfl⟩ := Fin.eq_zero_or_eq_succ (n := 8191) p
  · -- row 0 lies in the top piece
    refine (concatenate_pair_apply_left _ _ _ concatenates_S1x8192_S8191x8192_S8192x8192_d0 (ix2 (0 : Fin 8192) q) rfl
      (ix2 (0 : Fin 1) q) (fun a => match a with | ⟨0, _⟩ => rfl | ⟨1, _⟩ => rfl)).trans ?_
    rw [val_main_v7_apply, top_cut, step_top]
  · -- row r + 1 lies in the lower piece, at its row r
    refine (concatenate_pair_apply_right _ _ _ concatenates_S1x8192_S8191x8192_S8192x8192_d0 (ix2 r.succ q) rfl rfl
      (ix2 r q) (fun a ha => match a, ha with | ⟨0, _⟩, ha => absurd rfl ha | ⟨1, _⟩, _ => rfl) rfl).trans ?_
    rw [val_main_v6_apply, val_main_v4_apply, val_main_v0_apply, val_main_v3_apply, val_main_v1_apply,
      val_main_v2_apply, val_main_v5_apply, lower_cut, upper_cut, scale_col, shift_col, step_below]
    rfl

end Cert.ShiftedAffine.Reference

end
-- ==== Proof.StripValue.lean ====
/-
  One grid point computes the affine step of one strip of 128 columns.

  The body sees a strip `x0` of all 8192 rows and 128 columns and the two whole coefficient columns `x1`, `x2`. It
  writes the strip's row 0 unchanged, and then rows 1..8191 as `(x0[1:] + x0[:-1] · x1) + x2`, each coefficient
  stretched across the 128 lanes. The second write lies below the first and does not touch row 0, so what the output
  strip holds afterwards is: in row 0 the first write, in row `r + 1` the second write at its own row `r`, where the
  two loads of the strip read rows `r + 1` and `r` and the stretched columns read row `r`'s coefficients. That is
  the affine step on 128 columns.
-/
import proofs.«179483_j309237646072_1_alg».proof.Proof.Gen.KernelIdeal.Frame
import proofs.«179483_j309237646072_1_alg».proof.Proof.ShiftedAffine
import Idealize.ShloMosaic.Lib.ValueIdx
import Idealize.ShloMosaic.Lib.Pipeline.Value
import Idealize.ShloMosaic.Lib.WritesUnit

set_option maxRecDepth 16384

noncomputable section

namespace Cert.ShiftedAffine.Strip

open Idealize.ShloMosaic Idealize.ShloMosaic.ValueIdx Idealize.ShloMosaic.TcCoe Idealize.ShloMosaic.Tactic Idealize.SL.Sem
open Cert.KernelIdeal Cert.KernelIdeal.Gen

/-- A coefficient column stretched across the 128 lanes reads, anywhere in row `r`, the coefficient of row `r`. -/
theorem stretch_apply (v : FVec Ideal S8191x1 .f32) (hc : S8191x1.ShapeCasts S8191x1) (hb : S8191x1.Broadcasts S8191x128)
    (r : Fin 8191) (q : Fin 128) :
    broadcastTo S8191x128 (shapeCast S8191x1 v hc) hb (ix2 r q) = v (ix2 r (0 : Fin 1)) := by
  rw [shapeCast_self]
  exact broadcastTo_apply v hb (ix2 r q) (ix2 r (0 : Fin 1)) (fun a => match a with
    | ⟨0, _⟩ => by show r.val = if (8191 : Nat) = 1 then 0 else r.val; rw [if_neg (by decide)]
    | ⟨1, _⟩ => by show 0 = if (1 : Nat) = 1 then 0 else q.val; rw [if_pos rfl])

/-- The value of the second write at its row `r`, lane `q`, from the four loaded vectors: the lower rows' entry, plus the
    upper rows' entry times row `r`'s coefficient, plus row `r`'s shift. -/
theorem lower_rows_apply (v2 v5 : FVec Ideal S8191x1 .f32) (v8 v9 : FVec Ideal S8191x128 .f32) (r : Fin 8191) (q : Fin 128) :
    k0_pay1 (F := Ideal) v2 v5 v8 v9 (ix2 r q)
      = (v8 (ix2 r q) + v9 (ix2 r q) * v2 (ix2 r (0 : Fin 1))) + v5 (ix2 r (0 : Fin 1)) := by
  unfold k0_pay1
  show (v8 (ix2 r q) + v9 (ix2 r q) * broadcastTo S8191x128 (shapeCast S8191x1 v2 _) _ (ix2 r q))
      + broadcastTo S8191x128 (shapeCast S8191x1 v5 _) _ (ix2 r q) = _
  rw [stretch_apply, stretch_apply]

/-- A load of `W` whole rows of the strip starting at row `o`, read at its row `r`, reads the strip at row `o + r`. -/
theorem load_rows (X : Vec Ideal S8192x128 .f32) {o W : Nat}
    (inb : ∀ a, (![o, 0] : Fin 2 → Nat) a + (![W, 128] : Fin 2 → Nat) a ≤ S8192x128.size a)
    (r : Fin W) (q : Fin 128) (p : Fin 8192) (hp : p.val = o + r.val) :
    View.ld (Val := Elt Ideal) (e' := .f32) X (Rect.unit (s := S8192x128) ![o, 0] ![W, 128] inb) (ix2 r q) = X (ix2 p q) :=
  congrArg X (funext fun a => match a with
    | ⟨0, _⟩ => Fin.ext (by show o + 1 * r.val = p.val; omega)
    | ⟨1, _⟩ => Fin.ext (by show 0 + 1 * q.val = q.val; omega))

/-- A load of a whole coefficient column, read at row `r`, reads the column at row `r`. -/
theorem load_col (X : Vec Ideal S8191x1 .f32)
    (inb : ∀ a, (![0, 0] : Fin 2 → Nat) a + (![8191, 1] : Fin 2 → Nat) a ≤ S8191x1.size a) (r : Fin 8191) :
    View.ld (Val := Elt Ideal) (e' := .f32) X (Rect.unit (s := S8191x1) ![0, 0] ![8191, 1] inb) (ix2 r (0 : Fin 1))
      = X (ix2 r (0 : Fin 1)) :=
  congrArg X (funext fun a => match a with
    | ⟨0, _⟩ => Fin.ext (by show 0 + 1 * r.val = r.val; omega)
    | ⟨1, _⟩ => Fin.ext (by show 0 + 1 * 0 = 0; omega))

/-- What the body leaves in the output strip, on any staging buffers, is the affine step of the input strip. -/
theorem strip_eq (c : Dev nD) (i : grid0.Coords) (arg1 : Memref sig .tc .vmem S8192x128 .f32) (harg1 : arg1.IsWhole)
    (arg2 : Memref sig .tc .vmem S8191x1 .f32) (harg2 : arg2.IsWhole) (arg3 : Memref sig .tc .vmem S8191x1 .f32) (harg3 : arg3.IsWhole)
    (arg4 : Memref sig .tc .vmem S8192x128 .f32) (harg4 : arg4.IsWhole)
    (x0 : FVec Ideal S8192x128 .f32) (x1 x2 : FVec Ideal S8191x1 .f32) :
    out0_A_3 (F := Ideal) c i arg1 harg1 arg2 harg2 arg3 harg3 arg4 harg4 x0 x1 x2 = step 128 x0 x1 x2 := by
  funext y
  obtain ⟨p, q, rfl⟩ : ∃ (p : Fin 8192) (q : Fin 128), y = ix2 p q := ⟨y 0, y 1, eq_ix2 y⟩
  unfold out0_A_3 kernelRun0_A
  dsimp only
  sl_unfold_words
  obtain rfl | ⟨r, rfl⟩ := Fin.eq_zero_or_eq_succ (n := 8191) p
  · -- row 0: above the second write, inside the first
    refine (View.read_writes_cons_rows_of_not_mem (o := 1) (W := 8191) VO0_3 _ _ _ _ (ix2 (0 : Fin 8192) q) rfl rfl
      (Or.inl Nat.zero_lt_one)).trans ?_
    refine (View.read_writes_cons_rows_of_mem (o := 0) VO0_3 _ _ _ _ (ix2 (0 : Fin 8192) q) (ix2 (0 : Fin 1) q) rfl rfl rfl).trans ?_
    rw [View.readAt_eq_ld, harg1.read_unread, step_top]
    exact load_rows x0 _ (0 : Fin 1) q (0 : Fin 8192) rfl
  · -- row r + 1: inside the second write, at its row r
    refine (View.read_writes_cons_rows_of_mem (o := 1) VO0_3 _ _ _ _ (ix2 r.succ q) (ix2 r q) rfl
      (by show r.val + 1 = 1 + r.val; omega) rfl).trans ?_
    refine (lower_rows_apply _ _ _ _ r q).trans ?_
    simp only [View.readAt_eq_ld, harg1.read_unread, harg2.read_unread, harg3.read_unread]
    rw [load_rows x0 _ r q r.succ (by show r.val + 1 = 1 + r.val; omega),
      load_rows x0 _ r q r.castSucc (by show r.val = 0 + r.val; omega), load_col x1 _ r, load_col x2 _ r, step_below]
    rfl

end Cert.ShiftedAffine.Strip

end
-- ==== Proof.ArrayValue.lean ====
/-
  The strips tile the array: from what each grid point writes back to the whole result.

  The grid has 64 points; point `t` works on the strip of columns `128 t … 128 t + 127` of `x`, all 8192 rows, and on
  the two whole coefficient columns, which do not move with `t`. What it writes back is the affine step of its strip
  (the strip module), and since the affine step acts on each column by itself, that is the strip at the same columns of
  the affine step of the whole array. Every column lies in exactly one strip, so the 64 write-backs together leave the
  whole array at the affine step of the arguments.
-/
import proofs.«179483_j309237646072_1_alg».proof.Proof.Gen.KernelIdeal.Value
import proofs.«179483_j309237646072_1_alg».proof.Proof.StripValue

set_option maxRecDepth 16384

noncomputable section

namespace Cert.ShiftedAffine.Kernel

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value Cert.ShiftedAffine.Strip

variable (m : (ℓ : Loc nD τ sig) → Buf (Elt Ideal) ℓ) (ρ : Dev nD → PrngReg)

/-- Column `q` of strip `o` is column `128 o + q` of the array. -/
def stripCol (o : Fin 64) (q : Fin 128) : Fin 8192 :=
  ⟨o.val * 128 + q.val, by have := o.isLt; have := q.isLt; omega⟩

/-- The block index maps over the 64 grid points: the strip of `x` and of the result at point `t` is block `(0, t)`,
    the coefficient columns are block `(0, 0)` at every point. -/
theorem idx_facts : ∀ t : Fin cfg0.N, t.val < 64
    ∧ win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Every strip of the result is some point's. -/
theorem idx_onto : ∀ k : Fin 64, ∃ t : Fin cfg0.N, win0_3.index t = ![0, k.val] :=
  (by decide +kernel : ∀ k : Fin 64, ∃ t : Fin grid0.N, win0_3.index t = ![0, k.val])

/-- The strip of `x` the body sees at point `t` holds, in its column `q`, column `128 t + q` of `x`. -/
theorem xstrip_apply (c : Dev nD) (t : Fin cfg0.N) (ht : t.val < 64) (p : Fin 8192) (q : Fin 128) :
    (iblk m c 0 t : FVec Ideal S8192x128 .f32) (ix2 p q) = V m c main_arg0 (ix2 p (stripCol ⟨t.val, ht⟩ q)) := by
  obtain ⟨-, e0, e1, -⟩ := idx_facts t
  show V m c main_arg0 (((cfg0.win 0).blk t).view.emb (ix2 p q)) = _
  refine congrArg (V m c main_arg0) (funext fun a => Fin.ext ?_)
  match a with
  | ⟨0, _⟩ => show win0_0.index t (0 : Fin 2) * 8192 + 1 * p.val = p.val; omega
  | ⟨1, _⟩ => show win0_0.index t (1 : Fin 2) * 128 + 1 * q.val = t.val * 128 + q.val; omega

/-- The scale column the body sees at any point is the whole scale column. -/
theorem wcol_apply (c : Dev nD) (t : Fin cfg0.N) (r : Fin 8191) :
    (iblk m c 1 t : FVec Ideal S8191x1 .f32) (ix2 r (0 : Fin 1)) = V m c main_arg1 (ix2 r (0 : Fin 1)) := by
  obtain ⟨-, -, -, e0, e1, -⟩ := idx_facts t
  show V m c main_arg1 (((cfg0.win 1).blk t).view.emb (ix2 r (0 : Fin 1))) = _
  refine congrArg (V m c main_arg1) (funext fun a => Fin.ext ?_)
  match a with
  | ⟨0, _⟩ => show win0_1.index t (0 : Fin 2) * 8191 + 1 * r.val = r.val; omega
  | ⟨1, _⟩ => show win0_1.index t (1 : Fin 2) * 1 + 1 * 0 = 0; omega

/-- The shift column the body sees at any point is the whole shift column. -/
theorem bcol_apply (c : Dev nD) (t : Fin cfg0.N) (r : Fin 8191) :
    (iblk m c 2 t : FVec Ideal S8191x1 .f32) (ix2 r (0 : Fin 1)) = V m c main_arg2 (ix2 r (0 : Fin 1)) := by
  obtain ⟨-, -, -, -, -, e0, e1, -⟩ := idx_facts t
  show V m c main_arg2 (((cfg0.win 2).blk t).view.emb (ix2 r (0 : Fin 1))) = _
  refine congrArg (V m c main_arg2) (funext fun a => Fin.ext ?_)
  match a with
  | ⟨0, _⟩ => show win0_2.index t (0 : Fin 2) * 8191 + 1 * r.val = r.val; omega
  | ⟨1, _⟩ => show win0_2.index t (1 : Fin 2) * 1 + 1 * 0 = 0; omega

/-- What point `t` writes back is strip `t` of the affine step of the whole arguments. -/
theorem flushed_eq (c : Dev nD) (t : Fin cfg0.N) :
    (dats m 0 c).flushed 3 t
      = ((cfg0.win 3).blk t).view.read (Elt Ideal) (step 8192 (V m c main_arg0) (V m c main_arg1) (V m c main_arg2)) := by
  obtain ⟨ht, -, -, -, -, -, -, e0, e1⟩ := idx_facts t
  refine (flushed3_A m c t).trans ?_
  rw [strip_eq]
  funext j
  have hemb : ((cfg0.win 3).blk t).view.emb j = ix2 (j 0) (stripCol ⟨t.val, ht⟩ (j 1)) :=
    funext fun a => Fin.ext (by
      match a with
      | ⟨0, _⟩ => show win0_3.index t (0 : Fin 2) * 8192 + 1 * (j 0).val = (j 0).val; omega
      | ⟨1, _⟩ => show win0_3.index t (1 : Fin 2) * 128 + 1 * (j 1).val = t.val * 128 + (j 1).val; omega)
  show step 128 (iblk m c 0 t) (iblk m c 1 t) (iblk m c 2 t) (ix2 (j 0) (j 1))
    = step 8192 (V m c main_arg0) (V m c main_arg1) (V m c main_arg2) (((cfg0.win 3).blk t).view.emb j)
  rw [hemb]
  exact step_strip 8192 128 _ _ _ _ _ _ (stripCol ⟨t.val, ht⟩) (xstrip_apply m c t ht) (wcol_apply m c t) (bcol_apply m c t)
    (j 0) (j 1)

/-- An index of the array is in point `t`'s strip iff each coordinate is in the strip's range on its axis. -/
theorem mem_strip (t : Fin cfg0.N) (i : S8192x8192.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v0).slice (win0_3.rect t)).set ↔ _
  rw [View.set_slice_whole, Rect.mem_set_unit]
  exact Iff.rfl

/-- Every index of the array lies in the strip of the point its column names. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 1).val / 128, by omega⟩
  have q0 : win0_3.index t (0 : Fin 2) = 0 := congrFun ht 0
  have q1 : win0_3.index t (1 : Fin 2) = (i 1).val / 128 := congrFun ht 1
  refine ⟨t, flush0_3 t, ?_⟩
  rw [mem_strip]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 128 ≤ (i 1).val ∧ (i 1).val < win0_3.index t (1 : Fin 2) * 128 + 128
    omega

/-- After the 64 write-backs the result array is the affine step of the argument arrays. -/
theorem final (c : Dev nD) :
    (dats m 0 c).arrAt 3 cfg0.N = step 8192 (V m c main_arg0) (V m c main_arg1) (V m c main_arg2) :=
  (dats m 0 c).arrAt_eq_of_cover 3 _ (fun t _ => flushed_eq m c t) cover

/-- The kernel's run: every weakly fair execution terminates with the result array at the affine step of the
    arguments as launched, and the arguments unchanged. -/
theorem run : θ_run defs (onTc (τ := τ) (main (F := Ideal))) ⟨m, fun _ => 0, ρ⟩ fun r => ∀ c : Dev nD,
      r.2.mem ((c : Thread nD τ).loc main_v0)
        = step 8192 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ShiftedAffine.Kernel

end
-- ==== Proof.lean ====
/-
  The kernel and the reference compute the same step of an affine recurrence down the rows.

  Both programs take an array `x` of 8192 rows and 8192 columns and two columns `w`, `b` of 8191 coefficients, and
  return the array whose row 0 is `x`'s row 0 and whose row `r + 1` is `(x[r+1] + x[r] · w[r]) + b[r]`, the
  coefficients shared along the row (`ShiftedAffine.step`). The reference builds it from two cuts of `x`, two stretched
  columns and a join (`Reference.reference_eq`); the kernel builds it strip by strip, 128 columns at each of 64 grid
  points, writing row 0 and then the 8191 rows below it (`Strip.strip_eq`), and the strips tile the array
  (`Kernel.run`). The two sides form the product, the sum and the shifted sum in the same order, so they agree on the
  extended reals as they stand: no law of arithmetic is used, and the finiteness of the inputs is never opened.
  The idealized kernel is the kernel's own text read over the extended reals: the idealization rewrote nothing.
-/
import proofs.«179483_j309237646072_1_alg».proof.Defs
import proofs.«179483_j309237646072_1_alg».proof.Proof.Gen.Kernel
import proofs.«179483_j309237646072_1_alg».proof.Proof.Gen.Kernel.Skeleton
import proofs.«179483_j309237646072_1_alg».proof.Proof.Gen.Kernel.Launch
import proofs.«179483_j309237646072_1_alg».proof.Proof.Gen.Kernel.Points
import proofs.«179483_j309237646072_1_alg».proof.Proof.Gen.Kernel.Frame
import proofs.«179483_j309237646072_1_alg».proof.Proof.Gen.KernelIdeal
import proofs.«179483_j309237646072_1_alg».proof.Proof.Gen.KernelIdeal.Skeleton
import proofs.«179483_j309237646072_1_alg».proof.Proof.Gen.KernelIdeal.Launch
import proofs.«179483_j309237646072_1_alg».proof.Proof.Gen.KernelIdeal.Points
import proofs.«179483_j309237646072_1_alg».proof.Proof.Gen.KernelIdeal.Frame
import proofs.«179483_j309237646072_1_alg».proof.Proof.Gen.ReferenceIdeal
import proofs.«179483_j309237646072_1_alg».proof.Proof.Gen.Pre_finite_inputs
import proofs.«179483_j309237646072_1_alg».proof.Proof.Gen.KernelIdeal.Value
import proofs.«179483_j309237646072_1_alg».proof.Proof.Gen.ReferenceIdeal.Run
import proofs.«179483_j309237646072_1_alg».proof.Proof.Gen.ReferenceIdeal.Read
import proofs.«179483_j309237646072_1_alg».proof.Proof.ShiftedAffine
import proofs.«179483_j309237646072_1_alg».proof.Proof.ReferenceValue
import proofs.«179483_j309237646072_1_alg».proof.Proof.StripValue
import proofs.«179483_j309237646072_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs, faults nowhere, and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs too: its run to the joined array, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, the kernel's result array and the reference's joined array both end
    at the affine step of those arguments. -/
theorem algebraic : Cert.algebraic_KernelIdeal_ReferenceIdeal := by
  intro m ρ m' ρ' _ hagree
  refine ⟨fun c => Cert.ShiftedAffine.step 8192 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.ShiftedAffine.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ShiftedAffine.Reference.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
